-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1679411 : Shape := ⟨1, ![1679411]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1679411 : S_.BroadcastsInDim S1679411 (![] : Fin 0 → Fin S1679411.rank)
  reducesTo_S1679411_S_d0 : S1679411.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1679411 .f32) (main_arg2 : IVec S1679411 32) (main_arg3 : IVec S1679411 32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1679411 .f32 := Host.absf main_arg1
  let main_cst_0 : FVec F S_ .f32 := constant S_ .f32 0x7F800000#32
  let main_v5 : FVec F S1679411 .f32 := broadcastInDim S1679411 ![] bcast_S_S1679411 main_cst_0
  let main_v6 : IVec S1679411 1 := cmpf .olt main_v4 main_v5
  let main_c_1 : IVec S_ 1 := constantI S_ 1 1#1
  let main_v7 : IVec S_ 1 := (fun x v => Host.reduce IntOp.andi x v reducesTo_S1679411_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1679411 : Shape := ⟨1, ![1679411]⟩
abbrev S4096 : Shape := ⟨1, ![4096]⟩
abbrev S_ : Shape := ⟨0, ![]⟩
abbrev S4096x4096 : Shape := ⟨2, ![4096, 4096]⟩
abbrev S1679411x1 : Shape := ⟨2, ![1679411, 1]⟩
abbrev S1679411x2 : Shape := ⟨2, ![1679411, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1679411, .f32⟩
  | .hbm, ⟨2, _⟩ => ⟨S1679411, .i32⟩
  | .hbm, ⟨3, _⟩ => ⟨S1679411, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1679411, .i32⟩
  | .hbm, ⟨9, _⟩ => ⟨S1679411, .i1⟩
  | .hbm, ⟨10, _⟩ => ⟨S_, .i32⟩
  | .hbm, ⟨11, _⟩ => ⟨S1679411, .i32⟩
  | .hbm, ⟨12, _⟩ => ⟨S1679411, .i32⟩
  | .hbm, ⟨13, _⟩ => ⟨S1679411, .i32⟩
  | .hbm, ⟨14, _⟩ => ⟨S_, .i32⟩
  | .hbm, ⟨15, _⟩ => ⟨S1679411, .i32⟩
  | .hbm, ⟨16, _⟩ => ⟨S1679411, .i1⟩
  | .hbm, ⟨17, _⟩ => ⟨S_, .i32⟩
  | .hbm, ⟨18, _⟩ => ⟨S1679411, .i32⟩
  | .hbm, ⟨19, _⟩ => ⟨S1679411, .i32⟩
  | .hbm, ⟨20, _⟩ => ⟨S1679411, .i32⟩
  | .hbm, ⟨21, _⟩ => ⟨S1679411x1, .i32⟩
  | .hbm, ⟨22, _⟩ => ⟨S1679411x1, .i32⟩
  | .hbm, ⟨23, _⟩ => ⟨S1679411x2, .i32⟩
  | .hbm, ⟨24, _⟩ => ⟨S4096x4096, .f32⟩
  | .hbm, ⟨25, _⟩ => ⟨S8192x4096, .bf16⟩
  | .hbm, ⟨26, _⟩ => ⟨S4096x4096, .bf16⟩
  | .hbm, ⟨27, _⟩ => ⟨S1x4096, .f32⟩
  | .hbm, ⟨28, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1679411 : S_.BroadcastsInDim S1679411 (![] : Fin 0 → Fin S1679411.rank)
  bcast_S1679411_S1679411x1_0 : S1679411.BroadcastsInDim S1679411x1 (![0] : Fin 1 → Fin S1679411x1.rank)
  concatenates_S1679411x1_S1679411x1_S1679411x2_d1 : Shape.Concatenates [S1679411x1, S1679411x1] S1679411x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1679411x2_S1679411_n_01_01_1_wf : ScatterDims.WF S4096x4096 S1679411x2 S1679411 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1679411x2_S1679411_n_01_01_1 : ScatterDims S4096x4096 S1679411x2 S1679411 where
  updateWindowDims := []
  insertedWindowDims := [0, 1]
  scatterDimsToOperandDims := [0, 1]
  indexVectorDim := 1
  wf := scatter_S4096x4096_S1679411x2_S1679411_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1679411 : Shape := ⟨1, ![1679411]⟩
abbrev S4096 : Shape := ⟨1, ![4096]⟩
abbrev S_ : Shape := ⟨0, ![]⟩
abbrev S4096x4096 : Shape := ⟨2, ![4096, 4096]⟩
abbrev S1679411x1 : Shape := ⟨2, ![1679411, 1]⟩
abbrev S1679411x2 : Shape := ⟨2, ![1679411, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1679411, .f32⟩
  | .hbm, ⟨2, _⟩ => ⟨S1679411, .i32⟩
  | .hbm, ⟨3, _⟩ => ⟨S1679411, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1679411, .i32⟩
  | .hbm, ⟨9, _⟩ => ⟨S1679411, .i1⟩
  | .hbm, ⟨10, _⟩ => ⟨S_, .i32⟩
  | .hbm, ⟨11, _⟩ => ⟨S1679411, .i32⟩
  | .hbm, ⟨12, _⟩ => ⟨S1679411, .i32⟩
  | .hbm, ⟨13, _⟩ => ⟨S1679411, .i32⟩
  | .hbm, ⟨14, _⟩ => ⟨S_, .i32⟩
  | .hbm, ⟨15, _⟩ => ⟨S1679411, .i32⟩
  | .hbm, ⟨16, _⟩ => ⟨S1679411, .i1⟩
  | .hbm, ⟨17, _⟩ => ⟨S_, .i32⟩
  | .hbm, ⟨18, _⟩ => ⟨S1679411, .i32⟩
  | .hbm, ⟨19, _⟩ => ⟨S1679411, .i32⟩
  | .hbm, ⟨20, _⟩ => ⟨S1679411, .i32⟩
  | .hbm, ⟨21, _⟩ => ⟨S1679411x1, .i32⟩
  | .hbm, ⟨22, _⟩ => ⟨S1679411x1, .i32⟩
  | .hbm, ⟨23, _⟩ => ⟨S1679411x2, .i32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1679411 : S_.BroadcastsInDim S1679411 (![] : Fin 0 → Fin S1679411.rank)
  bcast_S1679411_S1679411x1_0 : S1679411.BroadcastsInDim S1679411x1 (![0] : Fin 1 → Fin S1679411x1.rank)
  concatenates_S1679411x1_S1679411x1_S1679411x2_d1 : Shape.Concatenates [S1679411x1, S1679411x1] S1679411x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1679411x2_S1679411_n_01_01_1_wf : ScatterDims.WF S4096x4096 S1679411x2 S1679411 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1679411x2_S1679411_n_01_01_1 : ScatterDims S4096x4096 S1679411x2 S1679411 where
  updateWindowDims := []
  insertedWindowDims := [0, 1]
  scatterDimsToOperandDims := [0, 1]
  indexVectorDim := 1
  wf := scatter_S4096x4096_S1679411x2_S1679411_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BodyTerms.lean ====
/-
  What one grid step of the kernel leaves behind, as plain terms of the blocks it was given.

  The kernel keeps a [1024, 1024] accumulator in scratch memory across the four steps k = 0, 1, 2, 3 of the
  contraction axis. Every step adds the product of its activation block and its weight block (contracted along their
  second axes) into the accumulator; the first step stores zeros into it beforehand, and the last step afterwards
  writes accumulator + bias row (broadcast down the rows) into the output block. So, writing `step acc x w` for
  `acc + x · wᵀ` (the term `k0_pay2`), `zeros` for `k0_pay1` and `emit acc b` for `acc + b` (`k0_pay3`):
    first step   leaves the accumulator at  step zeros x w,
    middle steps leave it at                step acc x w,
    last step    leaves it at               step acc x w   and the output block at  emit (step acc x w) b.
  Each is read off the stores the symbolic run of that case recorded: the last store into a buffer covers it whole,
  so the buffer holds that store's value, and a load of a whole buffer reads its contents.
-/
import proofs.«116959_j6365141533108_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem

variable {F : FTy → Type} [FloatOps F]

/-- The offsets of every load and store of the body: the origin. -/
theorem origin : (![0, 0] : Fin 2 → Nat) = fun _ => 0 := funext fun a => by fin_cases a <;> rfl

/-- First step (k = 0): the accumulator is zeroed, read back, and the product of the two blocks added. -/
theorem acc_first (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- A middle step (k = 1, 2): the product of the two blocks is added to what the step before left (`acc`). -/
theorem acc_middle (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : ¬cond0_1 i)
    (x0 x1 : Vec F S1024x1024 .bf16) (x2 : Vec F S1x1024 .f32) (acc : Vec F S1024x1024 .f32) :
    sout0_B_0 c i arg3 harg3 arg4 harg4 arg5 harg5 arg6 harg6 arg7 harg7 hc0 hc1 x0 x1 x2 acc = k0_pay2 acc x0 x1 := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero (S := S1024x1024) origin]
  simp only [View.readAt_eq_ld, harg3.read_unread, harg4.read_unread, harg7.read_unread,
    View.ld_unit_zero (S := S1024x1024) origin]

/-- The last step (k = 3) leaves the accumulator as a middle step does, -/
theorem acc_last (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : cond0_1 i)
    (x0 x1 : Vec F S1024x1024 .bf16) (x2 : Vec F S1x1024 .f32) (acc : Vec F S1024x1024 .f32) :
    sout0_C_0 c i arg3 harg3 arg4 harg4 arg5 harg5 arg6 harg6 arg7 harg7 hc0 hc1 x0 x1 x2 acc = k0_pay2 acc x0 x1 := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero (S := S1024x1024) origin]
  simp only [View.readAt_eq_ld, harg3.read_unread, harg4.read_unread, harg7.read_unread,
    View.ld_unit_zero (S := S1024x1024) origin]

/-- and writes that accumulator plus the bias row into the output block. -/
theorem out_last (c : Dev nD) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : cond0_1 i)
    (x0 x1 : Vec F S1024x1024 .bf16) (x2 : Vec F S1x1024 .f32) (acc : Vec F S1024x1024 .f32) :
    out0_C_3 c i arg3 harg3 arg4 harg4 arg5 harg5 arg6 harg6 arg7 harg7 hc0 hc1 x0 x1 x2 acc = k0_pay3 (k0_pay2 acc x0 x1) x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero (S := S1024x1024) origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

end Cert.KernelIdeal.Body

end
-- ==== Proof.BlockMath.lean ====
/-
  The body's three values read entry by entry over the extended reals.

  With `x` an activation block and `w` a weight block, both [1024, 1024], the matrix unit contracts the SECOND axis
  of each, so entry `(p, q)` of their product is `∑ u, x[p, u] · w[q, u]` (the block of `x · Wᵀ`). The accumulator
  update adds that to the old entry; the reset value is `0` everywhere; the emitted output entry is the accumulator's
  plus the bias row's entry of the same column. Narrowing to a shorter float format changes no value here.
-/
import proofs.«116959_j6365141533108_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockMath

open Cert.KernelIdeal Cert.KernelIdeal.Gen
open Idealize.ShloMosaic Idealize.ShloMosaic.ValueIdx

/-- Entry `(p, q)` of an activation block times the transpose of a weight block. -/
def blockProd (x w : Vec Ideal S1024x1024 .bf16) : FVec Ideal S1024x1024 .f32 :=
  fun i => ∑ u : Fin 1024, x (ix2 (i 0) u) * w (ix2 (i 1) u)

theorem blockProd_apply (x w : Vec Ideal S1024x1024 .bf16) (p q : Fin 1024) :
    blockProd x w (ix2 p q) = ∑ u : Fin 1024, x (ix2 p u) * w (ix2 q u) := rfl

/-! The matrix unit's operand indices at output entry `i` and contraction position `k`: the left operand is read at
    row `i 0`, column `k`; the right operand at row `i 1`, column `k`. -/

theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The matrix unit into a zero accumulator is `blockProd`. -/
theorem matmul_zero_eq (x w : Vec Ideal S1024x1024 .bf16) :
    matmul (F := Ideal) (φ₁ := .bf16) (φ₂ := .bf16) dot_S1024x1024_S1024x1024_S1024x1024_1_1_0_0_n_n none x w (constant S1024x1024 .f32 0x00000000#32)
      = blockProd x w := by
  funext i
  simp only [matmul]
  rw [Ideal.matmul_constant_zero_apply,
    ← Equiv.sum_comp (contrEquiv1 dot_S1024x1024_S1024x1024_S1024x1024_1_1_0_0_n_n 1024 rfl rfl).symm]
  refine Finset.sum_congr rfl fun u _ => ?_
  have hu := contrEquiv1_symm_val dot_S1024x1024_S1024x1024_S1024x1024_1_1_0_0_n_n 1024 rfl rfl u
  have el : dot_S1024x1024_S1024x1024_S1024x1024_1_1_0_0_n_n.lhsIdx i ((contrEquiv1 dot_S1024x1024_S1024x1024_S1024x1024_1_1_0_0_n_n 1024 rfl rfl).symm u) = ix2 (i 0) u :=
    funext fun a => Fin.ext (by
      match a with
      | ⟨0, _⟩ => exact lhs_row _ _
      | ⟨1, _⟩ => exact (lhs_col _ _).trans hu)
  have er : dot_S1024x1024_S1024x1024_S1024x1024_1_1_0_0_n_n.rhsIdx i ((contrEquiv1 dot_S1024x1024_S1024x1024_S1024x1024_1_1_0_0_n_n 1024 rfl rfl).symm u) = ix2 (i 1) u :=
    funext fun a => Fin.ext (by
      match a with
      | ⟨0, _⟩ => exact rhs_row _ _
      | ⟨1, _⟩ => exact (rhs_col _ _).trans hu)
  rw [el, er]
  rfl

/-- The reset value is zero at every entry. -/
theorem zeros_apply (i : S1024x1024.Idx) : k0_pay1 (F := Ideal) i = 0 := by
  unfold k0_pay1
  simp only [shapeCast_self]
  exact Ideal.ofBits_zero_f32

/-- The accumulator update, at an entry: the old entry plus the blocks' product there. -/
theorem step_apply (acc : Vec Ideal S1024x1024 .f32) (x w : Vec Ideal S1024x1024 .bf16) (i : S1024x1024.Idx) :
    k0_pay2 (F := Ideal) acc x w i = acc i + blockProd x w i := by
  unfold k0_pay2
  simp only [shapeCast_self]
  rw [matmul_zero_eq]
  rfl

/-- The emitted output, at entry `(p, q)`: the accumulator's entry plus the bias row's entry of column `q`. -/
theorem emit_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  rw [addf_apply, broadcastTo_1b_ab_apply]

end Cert.KernelIdeal.BlockMath

end
-- ==== Proof.Fold.lean ====
/-
  The accumulator over one run of four consecutive grid steps, and the output block its last step emits.

  The grid has 8 × 4 × 4 = 128 steps; step `t` works on row block `t / 16`, column block `(t / 4) % 4` and
  contraction stretch `t % 4`. Steps `4q, 4q + 1, 4q + 2, 4q + 3` form one run: the first resets the accumulator,
  each adds its blocks' product, and the last also emits accumulator + bias. So after step `t = 4q + 3` the
  accumulator holds the sum of the four steps' products (starting from zero), and the emitted block is that sum plus
  the bias row.
-/
import proofs.«116959_j6365141533108_1_alg».proof.Proof.Gen.KernelIdeal.Value
import proofs.«116959_j6365141533108_1_alg».proof.Proof.BodyTerms
import proofs.«116959_j6365141533108_1_alg».proof.Proof.BlockMath

noncomputable section

namespace Cert.KernelIdeal.Fold

open Cert.KernelIdeal Cert.KernelIdeal.Gen Cert.KernelIdeal.Value Cert.KernelIdeal.Body Cert.KernelIdeal.BlockMath
open Idealize.ShloMosaic Idealize.ShloMosaic.TcCoe Idealize.SL.Sem Idealize.ShloMosaic.ValueIdx

variable (m : (ℓ : Loc nD τ sig) → Buf (Elt Ideal) ℓ)

/-- The activation, weight and bias blocks step `t` is given, at their literal types. -/
abbrev actBlk (c : Dev nD) (t : Fin cfg0.N) : Vec Ideal S1024x1024 .bf16 := iblk m c 0 t
abbrev wgtBlk (c : Dev nD) (t : Fin cfg0.N) : Vec Ideal S1024x1024 .bf16 := iblk m c 1 t
abbrev biasBlk (c : Dev nD) (t : Fin cfg0.N) : Vec Ideal S1x1024 .f32 := iblk m c 2 t

/-! ## One step's effect on the accumulator, by the step's place in its run -/

theorem step_of_first (c : Dev nD) (n : ℕ) (hb : n < cfg0.N) (h0 : n % 4 = 0) (acc : Vec Ideal S1024x1024 .f32) :
    scAt0_0 m c n hb acc = k0_pay2 (k0_pay1 (F := Ideal)) (actBlk m c ⟨n, hb⟩) (wgtBlk m c ⟨n, hb⟩) := by
  have h1 : ¬n % 4 = 3 := by omega
  unfold scAt0_0
  rw [dif_pos h0, dif_neg h1]
  exact acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

theorem step_of_middle (c : Dev nD) (n : ℕ) (hb : n < cfg0.N) (h0 : ¬n % 4 = 0) (h1 : ¬n % 4 = 3)
    (acc : Vec Ideal S1024x1024 .f32) :
    scAt0_0 m c n hb acc = k0_pay2 acc (actBlk m c ⟨n, hb⟩) (wgtBlk m c ⟨n, hb⟩) := by
  unfold scAt0_0
  rw [dif_neg h0, dif_neg h1]
  exact acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

theorem step_of_last (c : Dev nD) (n : ℕ) (hb : n < cfg0.N) (h1 : n % 4 = 3) (acc : Vec Ideal S1024x1024 .f32) :
    scAt0_0 m c n hb acc = k0_pay2 acc (actBlk m c ⟨n, hb⟩) (wgtBlk m c ⟨n, hb⟩) := by
  have h0 : ¬n % 4 = 0 := by omega
  unfold scAt0_0
  rw [dif_neg h0, dif_pos h1]
  exact acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc

/-! ## The run's sum -/

/-- What step `n` adds to the accumulator: its blocks' product (nothing past the grid, where there is no step). -/
def addend (c : Dev nD) (n : ℕ) : S1024x1024.Idx → EReal := fun i =>
  if h : n < cfg0.N then blockProd (actBlk m c ⟨n, h⟩) (wgtBlk m c ⟨n, h⟩) i else 0

theorem addend_of_lt (c : Dev nD) (n : ℕ) (h : n < cfg0.N) (i : S1024x1024.Idx) :
    addend m c n i = blockProd (actBlk m c ⟨n, h⟩) (wgtBlk m c ⟨n, h⟩) i := dif_pos h

/-- After the last step `t` of a run the accumulator holds the sum of the run's four addends. -/
theorem acc_after_run (c : Dev nD) (t : Fin cfg0.N) (h3 : t.val % 4 = 3) (i : S1024x1024.Idx) :
    (outsAt0 m c t.val t.isLt).2 i = ∑ s ∈ Finset.range 4, addend m c (4 * (t.val / 4) + s) i := by
  have hN : cfg0.N = 128 := N_0
  rw [soutsAt0_0_eq m c t]
  refine (Pipeline.accAt_add_apply (N := cfg0.N)
    (fun n h => scAt0_0 m c n h (VS0_0.read (Elt Ideal) VS0_0.junk)) (scAt0_0 m c) (fun _ => (0 : EReal)) (addend m c)
    (4 * (t.val / 4)) 3 ?first ?later (t.val % 4) (by omega) _ i).trans ?_
  case first =>
    intro h i
    show scAt0_0 m c (4 * (t.val / 4)) h _ i = 0 + addend m c (4 * (t.val / 4)) i
    rw [step_of_first m c _ h (by omega), step_apply, zeros_apply, addend_of_lt m c _ h]
  case later =>
    intro n h acc i hlt hle
    have h0 : ¬n % 4 = 0 := by omega
    rw [addend_of_lt m c n h]
    by_cases h1 : n % 4 = 3
    · rw [step_of_last m c n h h1, step_apply]
    · rw [step_of_middle m c n h h0 h1, step_apply]
  rw [h3, zero_add]

/-! ## The emitted block -/

/-- At the last step of a run the output block is the accumulator the step leaves, plus the bias row. -/
theorem out_of_acc (c : Dev nD) (t : Fin cfg0.N) (h3 : t.val % 4 = 3) :
    (outsAt0 m c t.val t.isLt).1 = k0_pay3 (F := Ideal) (outsAt0 m c t.val t.isLt).2 (biasBlk m c t) := by
  have h0 : ¬t.val % 4 = 0 := by omega
  rw [outsAt0_C m c t h0 h3]
  dsimp only
  refine (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).trans ?_
  exact congrArg (fun a => k0_pay3 (F := Ideal) a (biasBlk m c t))
    (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).symm

/-- Entry `(p, q)` of the block the last step `t` of a run emits: the four addends' sum plus the bias entry. -/
theorem out_apply (c : Dev nD) (t : Fin cfg0.N) (h3 : t.val % 4 = 3) (p q : Fin 1024) :
    (outsAt0 m c t.val t.isLt).1 (ix2 p q)
      = (∑ s ∈ Finset.range 4, addend m c (4 * (t.val / 4) + s) (ix2 p q)) + biasBlk m c t (ix2 (0 : Fin 1) q) := by
  rw [out_of_acc m c t h3, emit_apply, acc_after_run m c t h3]

end Cert.KernelIdeal.Fold

end
-- ==== Proof.Staged.lean ====
/-
  What the kernel region finds in the three arrays it stages, after the host operations that precede it:
    the activations narrowed to bf16;
    the dense [4096, 4096] weight narrowed to bf16, the dense weight being the scatter of the coordinate list's values
      into a zero matrix at (row, column), a negative coordinate first shifted up by 4096 (`dense`);
    the bias recast from [4096] to one row [1, 4096].
-/
import proofs.«116959_j6365141533108_1_alg».proof.Proof.Gen.KernelIdeal.Frame
import Idealize.ShloMosaic.Lib.StableHlo.Run

noncomputable section

namespace Cert.KernelIdeal.Staged

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The dense weight matrix built from the coordinate list `(rows, cols, values)`. -/
def dense (vals : (⟨S1679411, .f32⟩ : BufTy).Contents (Elt F)) (rows cols : (⟨S1679411, .i32⟩ : BufTy).Contents (Elt F)) :
    (⟨S4096x4096, .f32⟩ : BufTy).Contents (Elt F) :=
  Host.scatter scatter_S4096x4096_S1679411x2_S1679411_n_01_01_1 (fun _ b => b)
    (broadcastInDim S4096x4096 ![] bcast_S_S4096x4096 (constant S_ .f32 0x00000000#32))
    (concatenate S1679411x2 1
      [⟨S1679411x1, broadcastInDim S1679411x1 ![0] bcast_S1679411_S1679411x1_0 (select (cmpi .slt rows (broadcastInDim S1679411 ![] bcast_S_S1679411 (constantI S_ 32 0#32))) (addi rows (broadcastInDim S1679411 ![] bcast_S_S1679411 (constantI S_ 32 4096#32))) rows)⟩,
       ⟨S1679411x1, broadcastInDim S1679411x1 ![0] bcast_S1679411_S1679411x1_0 (select (cmpi .slt cols (broadcastInDim S1679411 ![] bcast_S_S1679411 (constantI S_ 32 0#32))) (addi cols (broadcastInDim S1679411 ![] bcast_S_S1679411 (constantI S_ 32 4096#32))) cols)⟩]
      concatenates_S1679411x1_S1679411x1_S1679411x2_d1)
    vals

set_option maxHeartbeats 4000000 in
/-- The staged activations. -/
theorem staged_act (c : Dev nD) :
    (V m c main_v15 : (⟨S8192x4096, .bf16⟩ : BufTy).Contents (Elt F))
      = truncf .bf16 (m ((c : Thread nD τ).loc main_arg0)) bitsLt_bf16_f32 := by
  dsimp only [V, hostOps0]; after_results <;> rfl

set_option maxHeartbeats 4000000 in
/-- The staged weight. -/
theorem staged_wgt (c : Dev nD) :
    (V m c main_v16 : (⟨S4096x4096, .bf16⟩ : BufTy).Contents (Elt F))
      = truncf .bf16 (dense (m ((c : Thread nD τ).loc main_arg1)) (m ((c : Thread nD τ).loc main_arg2))
          (m ((c : Thread nD τ).loc main_arg3))) bitsLt_bf16_f32 := by
  dsimp only [V, hostOps0]; after_results <;> rfl

set_option maxHeartbeats 4000000 in
/-- The staged bias row. -/
theorem staged_bias (c : Dev nD) :
    (V m c main_v17 : (⟨S1x4096, .f32⟩ : BufTy).Contents (Elt F))
      = shapeCast S1x4096 (m ((c : Thread nD τ).loc main_arg4)) shapeCasts_S4096_S1x4096 := by
  dsimp only [V, hostOps0]; after_results <;> rfl

end Cert.KernelIdeal.Staged

end
-- ==== Proof.Blocks.lean ====
/-
  Where each step's blocks sit in the whole arrays, over the extended reals.

  Step `t` of the 8 × 4 × 4 grid has row block `t / 16`, column block `(t / 4) % 4`, contraction stretch `t % 4`.
  Its activation block is rows `1024 · (t / 16) + p`, columns `1024 · (t % 4) + u` of the activations; its weight block
  is rows `1024 · ((t / 4) % 4) + q`, columns `1024 · (t % 4) + u` of the dense weight; its bias block is columns
  `1024 · ((t / 4) % 4) + q` of the bias; its output block is rows `1024 · (t / 16) + p`, columns
  `1024 · ((t / 4) % 4) + q` of the result. Narrowing the staged arrays to bf16 changes no value here, so the blocks
  are read straight off the program's arguments.
-/
import proofs.«116959_j6365141533108_1_alg».proof.Proof.Staged
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Cert.KernelIdeal.Staged
open Idealize.ShloMosaic Idealize.ShloMosaic.TcCoe Idealize.SL.Sem Idealize.ShloMosaic.ValueIdx

variable (m : (ℓ : Loc nD τ sig) → Buf (Elt Ideal) ℓ)

/-- The four windows' block indices at step `t`, decided over the 128 steps. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The program's dense weight, as a function of the launch memory. -/
abbrev wgt (c : Dev nD) : (⟨S4096x4096, .f32⟩ : BufTy).Contents (Elt Ideal) :=
  dense (m ((c : Thread nD τ).loc main_arg1)) (m ((c : Thread nD τ).loc main_arg2)) (m ((c : Thread nD τ).loc main_arg3))

/-- Entry `(p, u)` of step `t`'s activation block is the activations' entry `(r, k)` at the row and column above. -/
theorem act_read (c : Dev nD) (t : Fin cfg0.N) (p u : Fin 1024) (r : Fin 8192) (k : Fin 4096)
    (hr : r.val = 1024 * (t.val / 16) + p.val) (hk : k.val = 1024 * (t.val % 4) + u.val) :
    (iblk m c 0 t : Vec Ideal S1024x1024 .bf16) (ix2 p u) = m ((c : Thread nD τ).loc main_arg0) (ix2 r k) := by
  obtain ⟨e0, e1, -⟩ := block_indices t
  unfold iblk
  have hV : V m c (Pipeline.arrRef spec0 0)
      = (truncf (F := Ideal) .bf16 (m ((c : Thread nD τ).loc main_arg0)) bitsLt_bf16_f32 : FVec Ideal S8192x4096 .bf16) :=
    staged_act m c
  rw [hV, View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * u.val = k.val; rw [e1, hk]; omega

/-- Entry `(q, u)` of step `t`'s weight block is entry `(o, k)` of whatever matrix `X` was narrowed into the staged
    weight array (stated for an arbitrary `X`, so that the dense weight is never looked into). -/
theorem wgt_read_of (c : Dev nD) (t : Fin cfg0.N) (q u : Fin 1024) (o k : Fin 4096)
    (ho : o.val = 1024 * (t.val / 4 % 4) + q.val) (hk : k.val = 1024 * (t.val % 4) + u.val)
    (X : FVec Ideal S4096x4096 .f32)
    (hX : V m c main_v16 = (truncf (F := Ideal) .bf16 X bitsLt_bf16_f32 : FVec Ideal S4096x4096 .bf16)) :
    (iblk m c 1 t : Vec Ideal S1024x1024 .bf16) (ix2 q u) = X (ix2 o k) := by
  obtain ⟨-, -, e0, e1, -⟩ := block_indices t
  unfold iblk
  have hV : V m c (Pipeline.arrRef spec0 1)
      = (truncf (F := Ideal) .bf16 X bitsLt_bf16_f32 : FVec Ideal S4096x4096 .bf16) := hX
  rw [hV, View.read_apply]
  show X _ = X _
  refine congrArg X (funext fun a => Fin.ext ?_)
  match a with
  | ⟨0, _⟩ => show win0_1.index t (0 : Fin 2) * 1024 + 1 * q.val = o.val; rw [e0, ho]; omega
  | ⟨1, _⟩ => show win0_1.index t (1 : Fin 2) * 1024 + 1 * u.val = k.val; rw [e1, hk]; omega

/-- Entry `(q, u)` of step `t`'s weight block is the dense weight's entry `(o, k)`. -/
theorem wgt_read (c : Dev nD) (t : Fin cfg0.N) (q u : Fin 1024) (o k : Fin 4096)
    (ho : o.val = 1024 * (t.val / 4 % 4) + q.val) (hk : k.val = 1024 * (t.val % 4) + u.val) :
    (iblk m c 1 t : Vec Ideal S1024x1024 .bf16) (ix2 q u) = wgt m c (ix2 o k) :=
  wgt_read_of m c t q u o k ho hk (wgt m c) (staged_wgt m c)

/-- Entry `(0, q)` of step `t`'s bias block is the bias's entry `o`. -/
theorem bias_read (c : Dev nD) (t : Fin cfg0.N) (q : Fin 1024) (o : Fin 4096)
    (ho : o.val = 1024 * (t.val / 4 % 4) + q.val) :
    (iblk m c 2 t : Vec Ideal S1x1024 .f32) (ix2 (0 : Fin 1) q) = m ((c : Thread nD τ).loc main_arg4) (ix1 o) := by
  obtain ⟨-, -, -, -, e0, e1, -⟩ := block_indices t
  unfold iblk
  have hV : V m c (Pipeline.arrRef spec0 2)
      = (shapeCast S1x4096 (m ((c : Thread nD τ).loc main_arg4)) shapeCasts_S4096_S1x4096 : FVec Ideal S1x4096 .f32) :=
    staged_bias m c
  rw [hV, View.read_apply]
  refine Eq.trans ?_ (shapeCast_a_1a_apply (m ((c : Thread nD τ).loc main_arg4)) shapeCasts_S4096_S1x4096 (0 : Fin 1) o)
  show shapeCast S1x4096 (m ((c : Thread nD τ).loc main_arg4)) shapeCasts_S4096_S1x4096 _
    = shapeCast S1x4096 (m ((c : Thread nD τ).loc main_arg4)) shapeCasts_S4096_S1x4096 _
  refine congrArg (shapeCast S1x4096 (m ((c : Thread nD τ).loc main_arg4)) shapeCasts_S4096_S1x4096) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 1024 + 1 * q.val = o.val; rw [e1, ho]; omega

/-- Entry `(p, q)` of step `t`'s output block sits at the result's entry `(r, o)`. -/
theorem out_place (t : Fin cfg0.N) (p q : Fin 1024) (r : Fin 8192) (o : Fin 4096)
    (hr : r.val = 1024 * (t.val / 16) + p.val) (ho : o.val = 1024 * (t.val / 4 % 4) + q.val) :
    ((cfg0.win 3).blk t).view.emb (ix2 p q) = ix2 r o := by
  obtain ⟨-, -, -, -, -, -, e0, e1⟩ := block_indices t
  funext a
  apply Fin.ext
  match a with
  | ⟨0, _⟩ => show win0_3.index t (0 : Fin 2) * 1024 + 1 * p.val = r.val; rw [e0, hr]; omega
  | ⟨1, _⟩ => show win0_3.index t (1 : Fin 2) * 1024 + 1 * q.val = o.val; rw [e1, ho]; omega

end Cert.KernelIdeal.Blocks

end
-- ==== Proof.Stretches.lean ====
/-
  The mathematics shared by both sides, over abstract data: a length-4096 sum is the sum of its four consecutive
  length-1024 stretches. It holds in any commutative additive monoid, so in the extended reals without any finiteness.
-/
import Mathlib.Algebra.BigOperators.Fin
import Mathlib.Logic.Equiv.Fin.Basic

namespace Cert.SparseLinear

open Finset

/-- A sum over `Fin 4096` splits into four consecutive stretches of 1024 terms: term `1024 * s + u` of the whole
    is term `u` of stretch `s`. -/
theorem sum_four_stretches {M : Type*} [AddCommMonoid M] (f : Fin 4096 → M) :
    ∑ k : Fin 4096, f k
      = ∑ s : Fin 4, ∑ u : Fin 1024, f ⟨1024 * s.val + u.val, by have := s.isLt; have := u.isLt; omega⟩ := by
  have e : ∑ k : Fin 4096, f k = ∑ p : Fin 4 × Fin 1024, f (finProdFinEquiv p) :=
    (Equiv.sum_comp (finProdFinEquiv (m := 4) (n := 1024)) f).symm
  rw [e, Fintype.sum_prod_type]
  refine Finset.sum_congr rfl fun s _ => Finset.sum_congr rfl fun u _ => congrArg f (Fin.ext ?_)
  show u.val + 1024 * s.val = 1024 * s.val + u.val
  omega

end Cert.SparseLinear
-- ==== Proof.Spec.lean ====
/-
  The function both programs compute, over the extended reals: a dense linear layer
      y[r, c] = (∑ k < 4096, x[r, k] · W[c, k]) + b[c]
  of an activation matrix `x` [8192, 4096], a weight matrix `W` [4096 out, 4096 in] given row by output channel, and a
  bias `b` [4096]. How `W` is assembled from its coordinate list is the same host computation in both programs and is
  never opened: the statement is about an arbitrary `W`.
-/
import Idealize.ShloMosaic.PureOps.Ideal
import Idealize.ShloMosaic.Lib.ValueIdx
import proofs.«116959_j6365141533108_1_alg».proof.Proof.Stretches

noncomputable section

namespace Cert.SparseLinear

open Idealize.ShloMosaic Idealize.ShloMosaic.ValueIdx

/-- The activations' and the result's shape, the dense weight's, and the bias's. -/
abbrev SAct : Shape := ⟨2, ![8192, 4096]⟩
abbrev SWgt : Shape := ⟨2, ![4096, 4096]⟩
abbrev SBias : Shape := ⟨1, ![4096]⟩

/-- Entry `(r, c)` of `x · Wᵀ + b`: the inner product of row `r` of `x` with row `c` of `W`, plus `b c`. -/
def linear (X : FVec Ideal SAct .f32) (W : FVec Ideal SWgt .f32) (b : FVec Ideal SBias .f32) : FVec Ideal SAct .f32 :=
  fun i => (∑ k : Fin 4096, X (ix2 (i 0) k) * W (ix2 (i 1) k)) + b (ix1 (i 1))

theorem linear_apply (X : FVec Ideal SAct .f32) (W : FVec Ideal SWgt .f32) (b : FVec Ideal SBias .f32)
    (r : Fin 8192) (c : Fin 4096) :
    linear X W b (ix2 r c) = (∑ k : Fin 4096, X (ix2 r k) * W (ix2 c k)) + b (ix1 c) := rfl

/-- The same entry with the inner product cut into its four stretches of 1024 consecutive terms, the order in which a
    kernel that walks the contraction axis in four steps meets them. Only associativity and commutativity of the sum
    are used, so no entry has to be finite. -/
theorem linear_apply_stretches (X : FVec Ideal SAct .f32) (W : FVec Ideal SWgt .f32) (b : FVec Ideal SBias .f32)
    (r : Fin 8192) (c : Fin 4096) :
    linear X W b (ix2 r c)
      = (∑ s : Fin 4, ∑ u : Fin 1024,
          X (ix2 r ⟨1024 * s.val + u.val, by have := s.isLt; have := u.isLt; omega⟩)
            * W (ix2 c ⟨1024 * s.val + u.val, by have := s.isLt; have := u.isLt; omega⟩)) + b (ix1 c) := by
  rw [linear_apply, sum_four_stretches (fun k => X (ix2 r k) * W (ix2 c k))]

end Cert.SparseLinear

end
-- ==== Proof.KernelValue.lean ====
/-
  The kernel's result array is the dense linear layer of its arguments.

  The last step `t = 4·(t / 4) + 3` of each run writes its output block back; entry `(p, q)` of that block lands at
  result entry `(r, o)`, `r = 1024·(t / 16) + p`, `o = 1024·((t / 4) % 4) + q`, and holds
      ∑ s < 4, ∑ u < 1024, x[r, 1024 s + u] · W[o, 1024 s + u]  +  b[o],
  step `4·(t / 4) + s` of the run having contributed stretch `s` of the inner product. That is `linear x W b` at
  `(r, o)`, the inner product cut into its four stretches. The 32 × 4 emitted blocks tile the [8192, 4096] result:
  entry `(r, o)` is in the block of step `16·(r / 1024) + 4·(o / 1024) + 3`.
-/
import proofs.«116959_j6365141533108_1_alg».proof.Proof.Fold
import proofs.«116959_j6365141533108_1_alg».proof.Proof.Blocks
import proofs.«116959_j6365141533108_1_alg».proof.Proof.Spec

noncomputable section

namespace Cert.KernelIdeal.Result

open Cert.KernelIdeal Cert.KernelIdeal.Gen Cert.KernelIdeal.Value Cert.KernelIdeal.BlockMath Cert.KernelIdeal.Fold
open Cert.KernelIdeal.Blocks Cert.SparseLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three arrays the layer is a function of, at their literal types: the activations, the dense weight, the bias. -/
abbrev actArr (c : Dev nD) : FVec Ideal S8192x4096 .f32 := m ((c : Thread nD τ).loc main_arg0)
abbrev wgtArr (c : Dev nD) : FVec Ideal S4096x4096 .f32 := wgt m c
abbrev biasArr (c : Dev nD) : FVec Ideal S4096 .f32 := m ((c : Thread nD τ).loc main_arg4)

/-- What the result array ends holding. -/
abbrev result (c : Dev nD) : Buf (Elt Ideal) ((c : Thread nD τ).loc main_v18) :=
  linear (actArr m c) (wgtArr m c) (biasArr m c)

/-- Step `4·(t / 4) + s` of the run that ends at `t` contributes stretch `s` of the inner product of row `r` of the
    activations with row `o` of the dense weight. -/
theorem addend_eq (c : Dev nD) (t : Fin cfg0.N) (s : Fin 4) (p q : Fin 1024) (r : Fin 8192) (o : Fin 4096)
    (hr : r.val = 1024 * (t.val / 16) + p.val) (ho : o.val = 1024 * (t.val / 4 % 4) + q.val) :
    addend m c (4 * (t.val / 4) + s.val) (ix2 p q)
      = ∑ u : Fin 1024,
          actArr m c (ix2 r ⟨1024 * s.val + u.val, by have := s.isLt; have := u.isLt; omega⟩)
            * wgtArr m c (ix2 o ⟨1024 * s.val + u.val, by have := s.isLt; have := u.isLt; omega⟩) := by
  have hN : cfg0.N = 128 := N_0
  have ht := t.isLt
  have hs := s.isLt
  have hlt : 4 * (t.val / 4) + s.val < cfg0.N := by omega
  rw [addend_of_lt m c _ hlt, blockProd_apply]
  refine Finset.sum_congr rfl fun u _ => ?_
  have hu := u.isLt
  have ha := act_read m c ⟨_, hlt⟩ p u r ⟨1024 * s.val + u.val, by omega⟩
    (by show r.val = 1024 * ((4 * (t.val / 4) + s.val) / 16) + p.val; omega)
    (by show 1024 * s.val + u.val = 1024 * ((4 * (t.val / 4) + s.val) % 4) + u.val; omega)
  have hw := wgt_read m c ⟨_, hlt⟩ q u o ⟨1024 * s.val + u.val, by omega⟩
    (by show o.val = 1024 * ((4 * (t.val / 4) + s.val) / 4 % 4) + q.val; omega)
    (by show 1024 * s.val + u.val = 1024 * ((4 * (t.val / 4) + s.val) % 4) + u.val; omega)
  exact congrArg₂ (· * ·) ha hw

/-- What a writing step writes back is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : cfg0.N = 128 := N_0
  have ht := t.isLt
  rw [flushed3]
  funext j
  obtain ⟨p, q, rfl⟩ : ∃ (p q : Fin 1024), j = ix2 p q := ⟨j 0, j 1, eq_ix2 j⟩
  have hp := p.isLt
  have hq := q.isLt
  have hr : 1024 * (t.val / 16) + p.val < 8192 := by omega
  have ho : 1024 * (t.val / 4 % 4) + q.val < 4096 := by omega
  show (outsAt0 m c t.val t.isLt).1 (ix2 p q) = result m c (((cfg0.win 3).blk t).view.emb (ix2 p q))
  rw [out_place t p q ⟨_, hr⟩ ⟨_, ho⟩ rfl rfl, out_apply m c t h3]
  show _ = linear (actArr m c) (wgtArr m c) (biasArr m c) (ix2 _ _)
  rw [linear_apply_stretches, Finset.sum_range]
  congr 1
  · exact Finset.sum_congr rfl fun s _ => addend_eq m c t s p q ⟨_, hr⟩ ⟨_, ho⟩ rfl rfl
  · exact bias_read m c t q ⟨_, ho⟩ rfl

/-- An entry of the result is in step `t`'s output block iff each coordinate is in the block's range. -/
theorem mem_blk (t : Fin cfg0.N) (i : S8192x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v18).slice (win0_3.rect t)).set ↔ _
  rw [View.set_slice_whole, Rect.mem_set_unit]
  exact Iff.rfl

/-- Every entry of the result is written by some run's last step. -/
theorem cover (i : S8192x4096.Idx) :
    ∃ t : Fin cfg0.N, (cfg0.win 3).flush t = true ∧ i ∈ ((cfg0.win 3).blk t).view.set := by
  have hN : cfg0.N = 128 := N_0
  have h0 : (i 0).val < 8192 := (i 0).isLt
  have h1 : (i 1).val < 4096 := (i 1).isLt
  have hlt : 16 * ((i 0).val / 1024) + 4 * ((i 1).val / 1024) + 3 < cfg0.N := by omega
  refine ⟨⟨_, hlt⟩, (flush0_3 _).mpr (by show (16 * ((i 0).val / 1024) + 4 * ((i 1).val / 1024) + 3) % 4 = 3; omega), ?_⟩
  obtain ⟨-, -, -, -, -, -, e0, e1⟩ := block_indices ⟨_, hlt⟩
  rw [mem_blk]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_3.index ⟨_, hlt⟩ (1 : Fin 2) * 1024 ≤ (i 1).val ∧ (i 1).val < win0_3.index ⟨_, hlt⟩ (1 : Fin 2) * 1024 + 1024
    rw [e1]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- The result array after the run. -/
theorem final (c : Dev nD) : (dats m 0 c).arrAt 3 cfg0.N = result m c :=
  (dats m 0 c).arrAt_eq_of_cover 3 (result m c) (flushed_eq m c) cover

/-- Every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Result

end
-- ==== Proof.RefValue.lean ====
/-
  The reference computes the dense linear layer: read entry by entry, its last stage is
      (∑ k, x[r, k] · Wᵀ[k, c]) + b[c]   with   Wᵀ[k, c] = W[c, k],
  the bias reaching entry `(r, c)` through a [4096] → [1, 4096] → [8192, 4096] broadcast that keeps the column. The
  dense weight `W` stays the opaque result of the scatter stage.
-/
import proofs.«116959_j6365141533108_1_alg».proof.Proof.Gen.ReferenceIdeal.Read
import proofs.«116959_j6365141533108_1_alg».proof.Proof.Spec

noncomputable section

namespace Cert.SparseLinear.Reference

open Cert.ReferenceIdeal Cert.ReferenceIdeal.Read
open Idealize.ShloMosaic Idealize.ShloMosaic.ValueIdx

/-- The reference's result, as a function of its five arguments, is `linear` of the activations, the scattered dense
    weight and the bias. -/
theorem result_eq_linear (x0 : (⟨S8192x4096, .f32⟩ : BufTy).Contents (Elt Ideal)) (x1 : (⟨S1679411, .f32⟩ : BufTy).Contents (Elt Ideal))
    (x2 x3 : (⟨S1679411, .i32⟩ : BufTy).Contents (Elt Ideal)) (x4 : (⟨S4096, .f32⟩ : BufTy).Contents (Elt Ideal)) :
    val_main_v19 (F := Ideal) x0 x1 x2 x3 x4 = linear x0 (val_main_v14 (F := Ideal) x1 x2 x3) x4 := by
  funext i
  obtain ⟨r, c, rfl⟩ : ∃ (r : Fin 8192) (c : Fin 4096), i = ix2 r c := ⟨i 0, i 1, eq_ix2 i⟩
  -- the activation is read at (r, k), the transposed weight at (k, c), i.e. the weight at (c, k), the bias at c
  have eX : ∀ k : Fin 4096, lidx_main_v16 (ix2 r c) k = ix2 r k := fun k =>
    funext fun a => Fin.ext (by match a with | ⟨0, _⟩ => rfl | ⟨1, _⟩ => rfl)
  have eW : ∀ k : Fin 4096, idx_main_v15 (ridx_main_v16 (ix2 r c) k) = ix2 c k := fun k =>
    funext fun a => Fin.ext (by match a with | ⟨0, _⟩ => rfl | ⟨1, _⟩ => rfl)
  have eB : idx_main_v17 (idx_main_v18 (ix2 r c)) = ix1 c :=
    funext fun a => Fin.ext (by match a with | ⟨0, _⟩ => rfl)
  rw [val_main_v19_apply, val_main_v16_apply, val_main_v18_apply, val_main_v17_apply, linear_apply, eB]
  simp only [val_main_v15_apply, eX, eW]
  rfl

end Cert.SparseLinear.Reference

end
-- ==== Proof.SameWeight.lean ====
/-
  Both programs build the dense weight by the same host computation: the same scatter, with the same dimension
  numbers, of the same values at the same wrapped coordinates into the same zero matrix. Unfolding the reference's
  stages one by one gives the kernel side's term.
-/
import proofs.«116959_j6365141533108_1_alg».proof.Proof.Staged
import proofs.«116959_j6365141533108_1_alg».proof.Proof.Gen.ReferenceIdeal.Read

noncomputable section

namespace Cert.SparseLinear.SameWeight

open Idealize.ShloMosaic Idealize.ShloMosaic.TcCoe

/-- The reference's scatter stage is the kernel program's dense weight, as functions of the coordinate list. -/
theorem dense_agree (vals : (⟨Cert.ReferenceIdeal.S1679411, .f32⟩ : BufTy).Contents (Elt Ideal))
    (rows cols : (⟨Cert.ReferenceIdeal.S1679411, .i32⟩ : BufTy).Contents (Elt Ideal)) :
    Cert.ReferenceIdeal.Read.val_main_v14 (F := Ideal) vals rows cols
      = Cert.KernelIdeal.Staged.dense (F := Ideal) vals rows cols := by
  unfold Cert.ReferenceIdeal.Read.val_main_v14 Cert.ReferenceIdeal.Read.val_main_v13
    Cert.ReferenceIdeal.Read.val_main_v11 Cert.ReferenceIdeal.Read.val_main_v12
    Cert.ReferenceIdeal.Read.val_main_v5 Cert.ReferenceIdeal.Read.val_main_v10
    Cert.ReferenceIdeal.Read.val_main_v2 Cert.ReferenceIdeal.Read.val_main_v4
    Cert.ReferenceIdeal.Read.val_main_v7 Cert.ReferenceIdeal.Read.val_main_v9
    Cert.ReferenceIdeal.Read.val_main_v0 Cert.ReferenceIdeal.Read.val_main_v1
    Cert.ReferenceIdeal.Read.val_main_v3 Cert.ReferenceIdeal.Read.val_main_v6
    Cert.ReferenceIdeal.Read.val_main_v8 Cert.ReferenceIdeal.Read.val_main_cst
    Cert.ReferenceIdeal.Read.val_main_c Cert.ReferenceIdeal.Read.val_main_c_0
    Cert.ReferenceIdeal.Read.val_main_c_1 Cert.ReferenceIdeal.Read.val_main_c_2
    Cert.KernelIdeal.Staged.dense
  rfl

end Cert.SparseLinear.SameWeight

end
-- ==== Proof.lean ====
/-
  The sparse linear layer `y = x · Wᵀ + b` (x [8192, 4096], W [4096, 4096] rebuilt densely from a coordinate list
  by a host scatter, b [4096]): the tiled kernel against the plain reference, over the extended reals.

  Both programs build `W` by the same host computation, which is never opened. The reference then takes the inner
  product of row `r` of `x` with row `o` of `W` over all 4096 positions and adds `b o`. The kernel walks a grid of
  8 × 4 × 4 steps; a run of four consecutive steps shares an output block, accumulates in scratch memory the four
  stretches of 1024 positions of the inner products of its rows and columns, starting from zero, and at its last step
  adds the bias and writes the block back. The two agree because a sum of 4096 terms is the sum of its four stretches
  of 1024 terms — associativity and commutativity of addition only, so no finiteness of the inputs is used, and
  narrowing to bf16 is the identity on the extended reals. The three frames are the generated frame runs (the
  reference's its generated run with the result forgotten), and the idealization rewrote nothing.
-/
import proofs.«116959_j6365141533108_1_alg».proof.Defs
import proofs.«116959_j6365141533108_1_alg».proof.Proof.Gen.Kernel
import proofs.«116959_j6365141533108_1_alg».proof.Proof.Gen.Kernel.Skeleton
import proofs.«116959_j6365141533108_1_alg».proof.Proof.Gen.Kernel.Launch
import proofs.«116959_j6365141533108_1_alg».proof.Proof.Gen.Kernel.Points
import proofs.«116959_j6365141533108_1_alg».proof.Proof.Gen.Kernel.Frame
import proofs.«116959_j6365141533108_1_alg».proof.Proof.Gen.KernelIdeal
import proofs.«116959_j6365141533108_1_alg».proof.Proof.Gen.KernelIdeal.Skeleton
import proofs.«116959_j6365141533108_1_alg».proof.Proof.Gen.KernelIdeal.Launch
import proofs.«116959_j6365141533108_1_alg».proof.Proof.Gen.KernelIdeal.Points
import proofs.«116959_j6365141533108_1_alg».proof.Proof.Gen.KernelIdeal.Frame
import proofs.«116959_j6365141533108_1_alg».proof.Proof.Gen.ReferenceIdeal
import proofs.«116959_j6365141533108_1_alg».proof.Proof.Gen.Pre_finite_inputs
import proofs.«116959_j6365141533108_1_alg».proof.Proof.Gen.KernelIdeal.Value
import proofs.«116959_j6365141533108_1_alg».proof.Proof.Gen.ReferenceIdeal.Run
import proofs.«116959_j6365141533108_1_alg».proof.Proof.Gen.ReferenceIdeal.Read
import proofs.«116959_j6365141533108_1_alg».proof.Proof.KernelValue
import proofs.«116959_j6365141533108_1_alg».proof.Proof.RefValue
import proofs.«116959_j6365141533108_1_alg».proof.Proof.SameWeight
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the five arguments both programs end with `linear x W b` in their result array,
    `W` the dense weight both scatter from the same coordinate list. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.SparseLinear.Reference.result_eq_linear,
    Cert.SparseLinear.SameWeight.dense_agree,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
